-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S32000x512 : Shape := ⟨2, ![32000, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S32000x512 : S_.BroadcastsInDim S32000x512 (![] : Fin 0 → Fin S32000x512.rank)
  reducesTo_S32000x512_S_d0_1 : S32000x512.ReducesTo [0, 1] S_

variable [Facts]

def fn {F : FTy → Type} [FloatOps F] (main_arg0 : FVec F S64x512x512 .f32) (main_arg1 : IVec S64x512 32) (main_arg2 : FVec F S32000x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S32000x512 .f32 := Host.absf main_arg2
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  main_v8
-- ==== Kernel.lean ====
abbrev S64x512x512 : Shape := ⟨3, ![64, 512, 512]⟩
abbrev S64x512 : Shape := ⟨2, ![64, 512]⟩
abbrev S32000x512 : Shape := ⟨2, ![32000, 512]⟩
abbrev S_ : Shape := ⟨0, ![]⟩
abbrev S64x512x1 : Shape := ⟨3, ![64, 512, 1]⟩
abbrev S512 : Shape := ⟨1, ![512]⟩
abbrev S8x128x512 : Shape := ⟨3, ![8, 128, 512]⟩
abbrev S8x128 : Shape := ⟨2, ![8, 128]⟩
abbrev S128 : Shape := ⟨1, ![128]⟩
abbrev S1x128 : Shape := ⟨2, ![1, 128]⟩
abbrev S128x512 : Shape := ⟨2, ![128, 512]⟩
abbrev S8x128x1 : Shape := ⟨3, ![8, 128, 1]⟩

abbrev nBuf : Space → Nat
  | .hbm => 15
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S32000x512, .f32⟩
  | .hbm, ⟨3, _⟩ => ⟨S_, .i32⟩
  | .hbm, ⟨4, _⟩ => ⟨S64x512, .i32⟩
  | .hbm, ⟨5, _⟩ => ⟨S64x512, .i1⟩
  | .hbm, ⟨6, _⟩ => ⟨S_, .i32⟩
  | .hbm, ⟨7, _⟩ => ⟨S64x512, .i32⟩
  | .hbm, ⟨8, _⟩ => ⟨S64x512, .i32⟩
  | .hbm, ⟨9, _⟩ => ⟨S64x512, .i32⟩
  | .hbm, ⟨10, _⟩ => ⟨S64x512x1, .i32⟩
  | .hbm, ⟨11, _⟩ => ⟨S64x512x512, .f32⟩
  | .hbm, ⟨12, _⟩ => ⟨S512, .f32⟩
  | .hbm, ⟨13, _⟩ => ⟨S_, .f32⟩
  | .hbm, ⟨14, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128, .i32⟩
  | .local _ .vmem, ⟨5, _⟩ => ⟨S8x128, .i32⟩
  | .local _ .vmem, ⟨6, _⟩ => ⟨S128, .f32⟩
  | .local _ .vmem, ⟨7, _⟩ => ⟨S128, .f32⟩
  | .local _ .vmem, ⟨8, _⟩ => ⟨S1x128, .f32⟩
  | .local _ .vmem, ⟨9, _⟩ => ⟨S1x128, .f32⟩
  | .local _ .vmem, ⟨10, _⟩ => ⟨S128x512, .f32⟩
  | .local _ .vmem, ⟨11, _⟩ => ⟨S128x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_37 : BitVec 32 := 0#32
  let v77 : BitVec 1 := Scalar.cmpi .ne v76 c0_i32_37
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  inb_S8x128_S8x128_0_0 : ∀ a, (![0, 0] : Fin 2 → Nat) a + S8x128.size a ≤ S8x128.size a
  h_S8x128 : 0 < S8x128.numel
  reduces_S8x128x512_S8x128 : S8x128x512.Reduces [2] S8x128
  shapeCasts_S8x128_S8x128x1 : S8x128.ShapeCasts S8x128x1
  broadcasts_S8x128x1_S8x128x512 : S8x128x1.Broadcasts S8x128x512
  natLt_1_32 : 1 < 32
  reduces_S8x128_S128 : S8x128.Reduces [0] S128
  shapeCasts_S128_S1x128 : S128.ShapeCasts S1x128
  reduces_S8x128x512_S128x512 : S8x128x512.Reduces [0] S128x512
  shapeCasts_S1x128_S128 : S1x128.ShapeCasts S128
  reduces_S128x512_S128 : S128x512.Reduces [1] S128
  inb_S128_S128_0 : ∀ a, (![0] : Fin 1 → Nat) a + S128.size a ≤ S128.size a
  h_S128 : 0 < S128.numel
  reducesTo_S512_S_d0 : S512.ReducesTo [0] S_
  h_S_ : 0 < S_.numel
  gather_S32000x512_S64x512x1_S64x512x512_2_0_n_n_0_2_1512_wf : GatherDims.WF S32000x512 S64x512x1 S64x512x512 [2] [0] [] [0] [] 2 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x512x512.size a
  hwx0_0 : ∀ i : grid0.Coords, EltTy.bits .f32 = 32 ∨ (Rect.block (s := S64x512x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S64x512x512.size a
  hwx0_1 : ∀ i : grid0.Coords, EltTy.bits .f32 = 32 ∨ (Rect.block (s := S64x512x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x512.size a
  hwx0_2 : ∀ i : grid0.Coords, EltTy.bits .i32 = 32 ∨ (Rect.block (s := S64x512) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S512.size a
  hwx0_3 : ∀ i : grid0.Coords, EltTy.bits .f32 = 32 ∨ (Rect.block (s := S512) S128.size (cc0_transform_3 i) (hinb0_3 i)).WholeWords (EltTy.packing .f32)

variable [Facts₀]

def gather_S32000x512_S64x512x1_S64x512x512_2_0_n_n_0_2_1512 : GatherDims S32000x512 S64x512x1 S64x512x512 where
  offsetDims := [2]
  collapsedSliceDims := [0]
  operandBatchingDims := []
  startIndicesBatchingDims := []
  startIndexMap := [0]
  indexVectorDim := 2
  sliceSizes := ![1, 512]
  wf := gather_S32000x512_S64x512x1_S64x512x512_2_0_n_n_0_2_1512_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x512x512 : Shape := ⟨3, ![64, 512, 512]⟩
abbrev S64x512 : Shape := ⟨2, ![64, 512]⟩
abbrev S32000x512 : Shape := ⟨2, ![32000, 512]⟩
abbrev S_ : Shape := ⟨0, ![]⟩
abbrev S64x512x1 : Shape := ⟨3, ![64, 512, 1]⟩
abbrev S512 : Shape := ⟨1, ![512]⟩
abbrev S512x512 : Shape := ⟨2, ![512, 512]⟩

abbrev nBuf : Space → Nat
  | .hbm => 84
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S32000x512, .f32⟩
  | .hbm, ⟨3, _⟩ => ⟨S_, .i32⟩
  | .hbm, ⟨4, _⟩ => ⟨S64x512, .i32⟩
  | .hbm, ⟨5, _⟩ => ⟨S64x512, .i1⟩
  | .hbm, ⟨6, _⟩ => ⟨S_, .i32⟩
  | .hbm, ⟨7, _⟩ => ⟨S64x512, .i32⟩
  | .hbm, ⟨8, _⟩ => ⟨S64x512, .i32⟩
  | .hbm, ⟨9, _⟩ => ⟨S64x512, .i32⟩
  | .hbm, ⟨10, _⟩ => ⟨S64x512x1, .i32⟩
  | .hbm, ⟨11, _⟩ => ⟨S64x512x512, .f32⟩
  | .hbm, ⟨12, _⟩ => ⟨S64x512x512, .f32⟩
  | .hbm, ⟨13, _⟩ => ⟨S_, .f32⟩
  | .hbm, ⟨14, _⟩ => ⟨S64x512, .f32⟩
  | .hbm, ⟨15, _⟩ => ⟨S64x512x1, .f32⟩
  | .hbm, ⟨16, _⟩ => ⟨S64x512x1, .f32⟩
  | .hbm, ⟨17, _⟩ => ⟨S_, .f32⟩
  | .hbm, ⟨18, _⟩ => ⟨S64x512x1, .f32⟩
  | .hbm, ⟨19, _⟩ => ⟨S64x512x1, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S_, .f32⟩
  | .hbm, ⟨24, _⟩ => ⟨S64x512, .f32⟩
  | .hbm, ⟨25, _⟩ => ⟨S64x512x1, .f32⟩
  | .hbm, ⟨26, _⟩ => ⟨S64x512x1, .f32⟩
  | .hbm, ⟨27, _⟩ => ⟨S_, .f32⟩
  | .hbm, ⟨28, _⟩ => ⟨S64x512x1, .f32⟩
  | .hbm, ⟨29, _⟩ => ⟨S64x512x1, .f32⟩
  | .hbm, ⟨30, _⟩ => ⟨S64x512x512, .f32⟩
  | .hbm, ⟨31, _⟩ => ⟨S64x512x512, .f32⟩
  | .hbm, ⟨32, _⟩ => ⟨S64x512x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512, .f32⟩
  | .hbm, ⟨46, _⟩ => ⟨S_, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S_, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S_, .i32⟩
  | .hbm, ⟨55, _⟩ => ⟨S64x512, .i32⟩
  | .hbm, ⟨56, _⟩ => ⟨S64x512, .i1⟩
  | .hbm, ⟨57, _⟩ => ⟨S64x512, .f32⟩
  | .hbm, ⟨58, _⟩ => ⟨S_, .f32⟩
  | .hbm, ⟨59, _⟩ => ⟨S512, .f32⟩
  | .hbm, ⟨60, _⟩ => ⟨S64x512, .f32⟩
  | .hbm, ⟨61, _⟩ => ⟨S_, .f32⟩
  | .hbm, ⟨62, _⟩ => ⟨S64x512, .f32⟩
  | .hbm, ⟨63, _⟩ => ⟨S64x512, .f32⟩
  | .hbm, ⟨64, _⟩ => ⟨S64x512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S512x512, .f32⟩
  | .hbm, ⟨70, _⟩ => ⟨S64x512x1, .f32⟩
  | .hbm, ⟨71, _⟩ => ⟨S64x512x512, .f32⟩
  | .hbm, ⟨72, _⟩ => ⟨S64x512x512, .f32⟩
  | .hbm, ⟨73, _⟩ => ⟨S_, .f32⟩
  | .hbm, ⟨74, _⟩ => ⟨S512x512, .f32⟩
  | .hbm, ⟨75, _⟩ => ⟨S512x512, .f32⟩
  | .hbm, ⟨76, _⟩ => ⟨S_, .f32⟩
  | .hbm, ⟨77, _⟩ => ⟨S512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S_, .f32⟩
  | .hbm, ⟨83, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  reducesTo_S64x512x512_S64x512_d2 : S64x512x512.ReducesTo [2] S64x512
  h_S_ : 0 < S_.numel
  bcast_S_S64x512x1 : S_.BroadcastsInDim S64x512x1 (![] : Fin 0 → Fin S64x512x1.rank)
  bcast_S64x512x1_S64x512x512_0_1_2 : S64x512x1.BroadcastsInDim S64x512x512 (![0, 1, 2] : Fin 3 → Fin S64x512x512.rank)
  reducesTo_S64x512_S512_d0 : S64x512.ReducesTo [0] S512
  reducesTo_S64x512x512_S512x512_d0 : S64x512x512.ReducesTo [0] S512x512
  reducesTo_S512x512_S512_d1 : S512x512.ReducesTo [1] S512
  bcast_S_S512 : S_.BroadcastsInDim S512 (![] : Fin 0 → Fin S512.rank)
  reducesTo_S512_S_d0 : S512.ReducesTo [0] S_
  gather_S32000x512_S64x512x1_S64x512x512_2_0_n_n_0_2_1512_wf : GatherDims.WF S32000x512 S64x512x1 S64x512x512 [2] [0] [] [0] [] 2 ![1, 512]

variable [Facts₀]

def gather_S32000x512_S64x512x1_S64x512x512_2_0_n_n_0_2_1512 : GatherDims S32000x512 S64x512x1 S64x512x512 where
  offsetDims := [2]
  collapsedSliceDims := [0]
  operandBatchingDims := []
  startIndicesBatchingDims := []
  startIndexMap := [0]
  indexVectorDim := 2
  sliceSizes := ![1, 512]
  wf := gather_S32000x512_S64x512x1_S64x512x512_2_0_n_n_0_2_1512_wf

class Facts : Prop extends Facts₀ where

variable [Facts]
-- ==== Proof.KUpd.lean ====
/-
  The four running totals the kernel body keeps between grid points, as functions of a point's input blocks and of
  the totals the point before left. At every point the body adds to each total the block's contribution summed
  over the block's eight batch rows:

    total 0 [1,128]    : the scores            -logC(kappa) + lambda1 * kappa   of the rows
    total 1 [1,128]    : the valid-label count
    total 2 [128,512]  : the unit-length rows of the first array
    total 3 [128,512]  : the unit-length rows of the gathered array, kept only where the label is valid

  and at the first point of a step tile it starts them from zero. At the last point of a step tile it emits, per step,
  total 0 * total 1 + (-lambda2) * (the inner product over the features of total 2 and total 3).
-/
import proofs.«119397_j22170621182543_1_alg».proof.Proof.Gen.KernelIdeal.Skeleton

noncomputable section

namespace Cert.KernelIdeal.KValue

open Cert.KernelIdeal Cert.KernelIdeal.Gen Idealize.ShloMosaic

variable {F : FTy → Type} [FloatOps F]

/-- The score total after a point: the total before it plus the block's scores summed over the block's rows. -/
abbrev upd0 (x0 : Vec F S8x128x512 .f32) (p : Vec F S1x128 .f32) : FVec F S1x128 .f32 :=
  k0_pay13 (k0_pay7 x0) (k0_pay10 x0) p

/-- The valid-label count after a point. -/
abbrev upd1 (x2 : Vec F S8x128 .i32) (p : Vec F S1x128 .f32) : FVec F S1x128 .f32 :=
  k0_pay14 x2 k0_pay11 p

/-- The total of the first array's unit rows after a point. -/
abbrev upd2 (x0 : Vec F S8x128x512 .f32) (p : Vec F S128x512 .f32) : FVec F S128x512 .f32 :=
  k0_pay15 (k0_pay8 x0) p

/-- The total of the gathered array's masked unit rows after a point. -/
abbrev upd3 (x1 : Vec F S8x128x512 .f32) (x2 : Vec F S8x128 .i32) (p : Vec F S128x512 .f32) : FVec F S128x512 .f32 :=
  k0_pay1 (k0_pay16 x2 (k0_pay9 x1) k0_pay11 p)

/-- What the last point of a step tile emits from the four totals. -/
abbrev emit (s0 s1 : Vec F S1x128 .f32) (s2 s3 : Vec F S128x512 .f32) : FVec F S128 .f32 :=
  k0_pay2 s0 s1 s2 s3

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.KValue

end
-- ==== Proof.KPieces.lean ====
/-
  What each case of the kernel body leaves in the four running totals, and what the last case emits, as values.

  A grid point is in one of three cases. At the first point of a step tile (case A) the body stores zeros into the four
  totals, reads them back and adds the block's contributions: each total ends at the update of zero. At a middle point
  (case B) and at the last point of a step tile (case C) each total ends at the update of what the point before left.
  At the last point the body then reads the four new totals back and stores what it emits from them.
  Every store covers its whole buffer, so a buffer's contents after the body are its last store's payload, and a load
  after a store of the same run reads that store's payload.
-/
import proofs.«119397_j22170621182543_1_alg».proof.Proof.Gen.KernelIdeal.Frame
import proofs.«119397_j22170621182543_1_alg».proof.Proof.KUpd
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

variable (c : Dev nD) (i : grid0.Coords)
  (a2 : Memref sig .tc .vmem S8x128x512 .f32) (h2 : a2.IsWhole) (a3 : Memref sig .tc .vmem S8x128x512 .f32) (h3 : a3.IsWhole)
  (a4 : Memref sig .tc .vmem S8x128 .i32) (h4 : a4.IsWhole) (a5 : Memref sig .tc .vmem S128 .f32) (h5 : a5.IsWhole)
  (a6 : Memref sig .tc .vmem S1x128 .f32) (h6 : a6.IsWhole) (a7 : Memref sig .tc .vmem S1x128 .f32) (h7 : a7.IsWhole)
  (a8 : Memref sig .tc .vmem S128x512 .f32) (h8 : a8.IsWhole) (a9 : Memref sig .tc .vmem S128x512 .f32) (h9 : a9.IsWhole)
  (x0 x1 : Vec F S8x128x512 .f32) (x2 : Vec F S8x128 .i32)

theorem sout_A_0 (hc0 : cond0_0 i) (hc1 : ¬cond0_1 i) :
    sout0_A_0 c i a2 h2 a3 h3 a4 h4 a5 h5 a6 h6 a7 h7 a8 h8 a9 h9 hc0 hc1 x0 x1 x2 = upd0 x0 k0_pay3 := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero (S := S1x128) hz2, View.readCov_unit_zero (S := S1x128) _ hz2]
  simp only [View.readAt_eq_ld, h2.read_unread, View.ld_unit_zero (S := S8x128x512) hz3]

theorem sout_A_1 (hc0 : cond0_0 i) (hc1 : ¬cond0_1 i) :
    sout0_A_1 c i a2 h2 a3 h3 a4 h4 a5 h5 a6 h6 a7 h7 a8 h8 a9 h9 hc0 hc1 x0 x1 x2 = upd1 x2 k0_pay4 := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S1x128) hz2, View.readCov_unit_zero (S := S1x128) _ hz2]
  simp only [View.readAt_eq_ld, h4.read_unread, View.ld_unit_zero (S := S8x128) hz2]

theorem sout_A_2 (hc0 : cond0_0 i) (hc1 : ¬cond0_1 i) :
    sout0_A_2 c i a2 h2 a3 h3 a4 h4 a5 h5 a6 h6 a7 h7 a8 h8 a9 h9 hc0 hc1 x0 x1 x2 = upd2 x0 k0_pay5 := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero (S := S128x512) hz2, View.readCov_unit_zero (S := S128x512) _ hz2]
  simp only [View.readAt_eq_ld, h2.read_unread, View.ld_unit_zero (S := S8x128x512) hz3]

theorem sout_A_3 (hc0 : cond0_0 i) (hc1 : ¬cond0_1 i) :
    sout0_A_3 c i a2 h2 a3 h3 a4 h4 a5 h5 a6 h6 a7 h7 a8 h8 a9 h9 hc0 hc1 x0 x1 x2 = upd3 x1 x2 k0_pay6 := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  rw [View.canon_cons_unit_zero (S := S128x512) hz2, View.readCov_unit_zero (S := S128x512) _ hz2]
  simp only [View.readAt_eq_ld, h3.read_unread, h4.read_unread, View.ld_unit_zero (S := S8x128x512) hz3, View.ld_unit_zero (S := S8x128) hz2]

theorem sout_B_0 (hc0 : ¬cond0_0 i) (hc1 : ¬cond0_1 i) (xs0 xs1 : Vec F S1x128 .f32) (xs2 xs3 : Vec F S128x512 .f32) :
    sout0_B_0 c i a2 h2 a3 h3 a4 h4 a5 h5 a6 h6 a7 h7 a8 h8 a9 h9 hc0 hc1 x0 x1 x2 xs0 xs1 xs2 xs3 = upd0 x0 xs0 := by
  unfold sout0_B_0
  rw [View.read_writes_eq_canon _ _ _ (scover0_B_0 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero (S := S1x128) hz2]
  simp only [View.readAt_eq_ld, h2.read_unread, h6.read_unread, View.ld_unit_zero (S := S8x128x512) hz3, View.ld_unit_zero (S := S1x128) hz2]

theorem sout_B_1 (hc0 : ¬cond0_0 i) (hc1 : ¬cond0_1 i) (xs0 xs1 : Vec F S1x128 .f32) (xs2 xs3 : Vec F S128x512 .f32) :
    sout0_B_1 c i a2 h2 a3 h3 a4 h4 a5 h5 a6 h6 a7 h7 a8 h8 a9 h9 hc0 hc1 x0 x1 x2 xs0 xs1 xs2 xs3 = upd1 x2 xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero (S := S1x128) hz2]
  simp only [View.readAt_eq_ld, h4.read_unread, h7.read_unread, View.ld_unit_zero (S := S8x128) hz2, View.ld_unit_zero (S := S1x128) hz2]

theorem sout_B_2 (hc0 : ¬cond0_0 i) (hc1 : ¬cond0_1 i) (xs0 xs1 : Vec F S1x128 .f32) (xs2 xs3 : Vec F S128x512 .f32) :
    sout0_B_2 c i a2 h2 a3 h3 a4 h4 a5 h5 a6 h6 a7 h7 a8 h8 a9 h9 hc0 hc1 x0 x1 x2 xs0 xs1 xs2 xs3 = upd2 x0 xs2 := by
  unfold sout0_B_2
  rw [View.read_writes_eq_canon _ _ _ (scover0_B_2 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero (S := S128x512) hz2]
  simp only [View.readAt_eq_ld, h2.read_unread, h8.read_unread, View.ld_unit_zero (S := S8x128x512) hz3, View.ld_unit_zero (S := S128x512) hz2]

theorem sout_B_3 (hc0 : ¬cond0_0 i) (hc1 : ¬cond0_1 i) (xs0 xs1 : Vec F S1x128 .f32) (xs2 xs3 : Vec F S128x512 .f32) :
    sout0_B_3 c i a2 h2 a3 h3 a4 h4 a5 h5 a6 h6 a7 h7 a8 h8 a9 h9 hc0 hc1 x0 x1 x2 xs0 xs1 xs2 xs3 = upd3 x1 x2 xs3 := by
  unfold sout0_B_3
  rw [View.read_writes_eq_canon _ _ _ (scover0_B_3 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero (S := S128x512) hz2]
  simp only [View.readAt_eq_ld, h3.read_unread, h4.read_unread, h9.read_unread, View.ld_unit_zero (S := S8x128x512) hz3, View.ld_unit_zero (S := S8x128) hz2, View.ld_unit_zero (S := S128x512) hz2]

theorem sout_C_0 (hc0 : ¬cond0_0 i) (hc1 : cond0_1 i) (xs0 xs1 : Vec F S1x128 .f32) (xs2 xs3 : Vec F S128x512 .f32) :
    sout0_C_0 c i a2 h2 a3 h3 a4 h4 a5 h5 a6 h6 a7 h7 a8 h8 a9 h9 hc0 hc1 x0 x1 x2 xs0 xs1 xs2 xs3 = upd0 x0 xs0 := by
  unfold sout0_C_0
  rw [View.read_writes_eq_canon _ _ _ (scover0_C_0 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero (S := S1x128) hz2]
  simp only [View.readAt_eq_ld, h2.read_unread, h6.read_unread, View.ld_unit_zero (S := S8x128x512) hz3, View.ld_unit_zero (S := S1x128) hz2]

theorem sout_C_1 (hc0 : ¬cond0_0 i) (hc1 : cond0_1 i) (xs0 xs1 : Vec F S1x128 .f32) (xs2 xs3 : Vec F S128x512 .f32) :
    sout0_C_1 c i a2 h2 a3 h3 a4 h4 a5 h5 a6 h6 a7 h7 a8 h8 a9 h9 hc0 hc1 x0 x1 x2 xs0 xs1 xs2 xs3 = upd1 x2 xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero (S := S1x128) hz2]
  simp only [View.readAt_eq_ld, h4.read_unread, h7.read_unread, View.ld_unit_zero (S := S8x128) hz2, View.ld_unit_zero (S := S1x128) hz2]

theorem sout_C_2 (hc0 : ¬cond0_0 i) (hc1 : cond0_1 i) (xs0 xs1 : Vec F S1x128 .f32) (xs2 xs3 : Vec F S128x512 .f32) :
    sout0_C_2 c i a2 h2 a3 h3 a4 h4 a5 h5 a6 h6 a7 h7 a8 h8 a9 h9 hc0 hc1 x0 x1 x2 xs0 xs1 xs2 xs3 = upd2 x0 xs2 := by
  unfold sout0_C_2
  rw [View.read_writes_eq_canon _ _ _ (scover0_C_2 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero (S := S128x512) hz2]
  simp only [View.readAt_eq_ld, h2.read_unread, h8.read_unread, View.ld_unit_zero (S := S8x128x512) hz3, View.ld_unit_zero (S := S128x512) hz2]

theorem sout_C_3 (hc0 : ¬cond0_0 i) (hc1 : cond0_1 i) (xs0 xs1 : Vec F S1x128 .f32) (xs2 xs3 : Vec F S128x512 .f32) :
    sout0_C_3 c i a2 h2 a3 h3 a4 h4 a5 h5 a6 h6 a7 h7 a8 h8 a9 h9 hc0 hc1 x0 x1 x2 xs0 xs1 xs2 xs3 = upd3 x1 x2 xs3 := by
  unfold sout0_C_3
  rw [View.read_writes_eq_canon _ _ _ (scover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero (S := S128x512) hz2]
  simp only [View.readAt_eq_ld, h3.read_unread, h4.read_unread, h9.read_unread, View.ld_unit_zero (S := S8x128x512) hz3, View.ld_unit_zero (S := S8x128) hz2, View.ld_unit_zero (S := S128x512) hz2]

theorem out_C_3 (hc0 : ¬cond0_0 i) (hc1 : cond0_1 i) (xs0 xs1 : Vec F S1x128 .f32) (xs2 xs3 : Vec F S128x512 .f32) :
    out0_C_3 c i a2 h2 a3 h3 a4 h4 a5 h5 a6 h6 a7 h7 a8 h8 a9 h9 hc0 hc1 x0 x1 x2 xs0 xs1 xs2 xs3
      = emit (upd0 x0 xs0) (upd1 x2 xs1) (upd2 x0 xs2) (upd3 x1 x2 xs3) := by
  unfold out0_C_3
  rw [View.read_writes_eq_canon _ _ _ (cover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero (S := S128) hz1]
  simp only [View.readCov_unit_zero (S := S1x128) _ hz2, View.readCov_unit_zero (S := S128x512) _ hz2, View.readAt_eq_ld,
    h2.read_unread, h3.read_unread, h4.read_unread, h6.read_unread, h7.read_unread, h8.read_unread, h9.read_unread,
    View.ld_unit_zero (S := S8x128x512) hz3, View.ld_unit_zero (S := S8x128) hz2, View.ld_unit_zero (S := S1x128) hz2, View.ld_unit_zero (S := S128x512) hz2]

end Cert.KernelIdeal.KValue

end
-- ==== Proof.KTotals.lean ====
/-
  The four running totals after each grid point, and what a step tile's last point emits, read off the frame run.

  The grid's 32 points are numbered n = 8 * (step tile) + (batch tile); the batch tile moves fastest. The totals after
  point n are defined by recursion on n: at a first point of a step tile (n divisible by 8) they are the update of
  zero by the point's blocks, at every other point the update of the totals after point n - 1. The frame run's
  account of the scratch buffers after point n is exactly this (by induction on n, each case's stored pieces read as
  values), and at the last point of a step tile (n = 7 mod 8) the output block holds what the totals after that
  point emit.
-/
import proofs.«119397_j22170621182543_1_alg».proof.Proof.Gen.KernelIdeal.Frame
import proofs.«119397_j22170621182543_1_alg».proof.Proof.KPieces

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- Point number n as a grid point (a number past the grid wraps around; only n < 32 is ever used). -/
def pt (n : ℕ) : Fin cfg0.N := ⟨n % 32, lt_of_lt_of_eq (Nat.mod_lt n (by decide)) N_0.symm⟩

theorem pt_val (n : ℕ) (h : n < 32) : (pt n).val = n := Nat.mod_eq_of_lt h

theorem pt_eq (n : ℕ) (h : n < cfg0.N) : (⟨n, h⟩ : Fin cfg0.N) = pt n :=
  Fin.ext (Nat.mod_eq_of_lt (lt_of_lt_of_eq h N_0)).symm

/-- The three input blocks of a grid point, at their literal shapes. -/
abbrev xblk (c : Dev nD) (t : Fin cfg0.N) : Vec F S8x128x512 .f32 := iblk m c 0 t
abbrev yblk (c : Dev nD) (t : Fin cfg0.N) : Vec F S8x128x512 .f32 := iblk m c 1 t
abbrev gblk (c : Dev nD) (t : Fin cfg0.N) : Vec F S8x128 .i32 := iblk m c 2 t

/-- The totals a first point of a step tile leaves: the update of zero. -/
def fresh (c : Dev nD) (n : Fin cfg0.N) : Vec F S1x128 .f32 × Vec F S1x128 .f32 × Vec F S128x512 .f32 × Vec F S128x512 .f32 :=
  (upd0 (xblk m c n) k0_pay3, upd1 (gblk m c n) k0_pay4, upd2 (xblk m c n) k0_pay5, upd3 (yblk m c n) (gblk m c n) k0_pay6)

/-- The totals any other point leaves: the update of what the point before left. -/
def next (c : Dev nD) (n : Fin cfg0.N) (p : Vec F S1x128 .f32 × Vec F S1x128 .f32 × Vec F S128x512 .f32 × Vec F S128x512 .f32) :
    Vec F S1x128 .f32 × Vec F S1x128 .f32 × Vec F S128x512 .f32 × Vec F S128x512 .f32 :=
  (upd0 (xblk m c n) p.1, upd1 (gblk m c n) p.2.1, upd2 (xblk m c n) p.2.2.1, upd3 (yblk m c n) (gblk m c n) p.2.2.2)

/-- The four totals after point n. -/
def totals (c : Dev nD) : ℕ → Vec F S1x128 .f32 × Vec F S1x128 .f32 × Vec F S128x512 .f32 × Vec F S128x512 .f32
  | 0 => fresh m c (pt 0)
  | n + 1 => if (n + 1) % 8 = 0 then fresh m c (pt (n + 1)) else next m c (pt (n + 1)) (totals c n)

theorem totals_fresh (c : Dev nD) (n : ℕ) (h0 : n % 8 = 0) : totals m c n = fresh m c (pt n) := by
  cases n with
  | zero => rfl
  | succ k => exact if_pos h0

theorem totals_next (c : Dev nD) (n : ℕ) (h0 : ¬(n + 1) % 8 = 0) : totals m c (n + 1) = next m c (pt (n + 1)) (totals m c n) :=
  if_neg h0

/-- The frame run's scratch contents after point n are the totals after point n. -/
theorem outsAt_totals (c : Dev nD) : ∀ (n : ℕ) (h : n < cfg0.N), (outsAt0 m c n h).2 = totals m c n
  | 0, h => by
    rw [totals_fresh m c 0 rfl, ← pt_eq 0 h, outsAt0_A m c ⟨0, h⟩ rfl (by show ¬(0 % 8 = 7); decide)]
    dsimp only
    rw [sout_A_0, sout_A_1, sout_A_2, sout_A_3]
    rfl
  | n + 1, h => by
    have ih := outsAt_totals c n (Nat.lt_of_succ_lt h)
    by_cases h0 : (n + 1) % 8 = 0
    · have h1 : ¬(n + 1) % 8 = 7 := by omega
      rw [totals_fresh m c (n + 1) h0, ← pt_eq (n + 1) h, outsAt0_A m c ⟨n + 1, h⟩ h0 h1]
      dsimp only
      rw [sout_A_0, sout_A_1, sout_A_2, sout_A_3]
      rfl
    · rw [totals_next m c n h0, ← ih, ← pt_eq (n + 1) h]
      by_cases h1 : (n + 1) % 8 = 7
      · rw [outsAt0_C m c ⟨n + 1, h⟩ h0 h1]
        dsimp only
        rw [sout_C_0, sout_C_1, sout_C_2, sout_C_3]
        rfl
      · rw [outsAt0_B m c ⟨n + 1, h⟩ h0 h1]
        dsimp only
        rw [sout_B_0, sout_B_1, sout_B_2, sout_B_3]
        rfl

/-- At the last point of a step tile the output block holds what the totals after that point emit. -/
theorem outsAt_emit (c : Dev nD) (n : ℕ) (h : n < cfg0.N) (h7 : n % 8 = 7) :
    (outsAt0 m c n h).1
      = emit (totals m c n).1 (totals m c n).2.1 (totals m c n).2.2.1 (totals m c n).2.2.2 := by
  cases n with
  | zero => exact absurd h7 (by decide)
  | succ k =>
    have h0 : ¬(k + 1) % 8 = 0 := by omega
    have ih := outsAt_totals m c k (Nat.lt_of_succ_lt h)
    rw [totals_next m c k h0, ← ih, ← pt_eq (k + 1) h, outsAt0_C m c ⟨k + 1, h⟩ h0 h7]
    dsimp only
    rw [out_C_3]
    rfl

end Cert.KernelIdeal.KValue

end
-- ==== Proof.Spec.lean ====
/-
  The loss both programs compute, as mathematics over the extended reals.

  For an array x of shape [64, 512, 512] (batch b, step t, feature k), a gathered target array y of the same
  shape and integer labels tg of shape [64, 512]:

    kappa(b,t)  = sqrt(sum_k x(b,t,k)^2)                 the Euclidean norm of a row
    unit r k    = r k / max(|r|, eps)                    a row scaled to unit length (eps guards the zero row)
    logC kappa  = sqrt(A + kappa^2) - V * log(V + sqrt(B + kappa^2))
                                                         the approximate log-normaliser of the von Mises-Fisher density
    score kappa = -logC kappa + lambda1 * kappa
    valid w     = 1 if the label w is not the padding label 1, else 0

    perStep t   = (sum_b score kappa(b,t)) * (sum_b valid tg(b,t))
                  + (-lambda2) * sum_k (sum_b unit x(b,t,.) k) * (sum_b unit y(b,t,.) k * valid tg(b,t))

  and the loss is the sum of perStep t over the 512 steps. The float constants stay the words the programs print; only
  the zero word is ever evaluated.

  The second half is the arithmetic of a sum over 64 batch rows taken eight rows at a time: tiles g k is the total of the
  first k groups of eight consecutive terms of g; it grows by one group per step (tiles_succ) and after eight groups it
  is the sum over all 64 (tiles_eight). Addition of extended reals is commutative and associative, so no finiteness
  is needed anywhere.
-/
import Idealize.ShloMosaic.PureOps.Ideal
import Idealize.ShloMosaic.PureOps.Ideal.Laws
import Idealize.ShloMosaic.Lib.ValueIdx

noncomputable section

namespace VmfLoss

open Idealize.ShloMosaic Idealize.ShloMosaic.ValueIdx

/-- The guard eps of the normalisation (the word of f32 1e-12). -/
abbrev eps : EReal := Ideal.ofBits .f32 0x2B8CBCCC#32
/-- A = (v + 1)^2 = 65536 for v = 512/2 - 1. -/
abbrev cA : EReal := Ideal.ofBits .f32 0x47800000#32
/-- B = (v - 1)^2 = 64516. -/
abbrev cB : EReal := Ideal.ofBits .f32 0x477C0400#32
/-- V = v - 1 = 254. -/
abbrev cV : EReal := Ideal.ofBits .f32 0x437E0000#32
/-- lambda1 (the word of f32 0.02). -/
abbrev lam1 : EReal := Ideal.ofBits .f32 0x3CA3D70A#32
/-- -lambda2 (the word of f32 -0.1). -/
abbrev nlam2 : EReal := Ideal.ofBits .f32 0xBDCCCCCD#32

/-- The Euclidean norm of a row of 512 features. -/
def norm (r : Fin 512 → EReal) : EReal := Ideal.sqrt (∑ k, r k * r k)

/-- A row scaled to unit length, the norm guarded from below by eps. -/
def unit (r : Fin 512 → EReal) (k : Fin 512) : EReal := Ideal.div (r k) (max (norm r) eps)

/-- The approximate log-normaliser at concentration kappa. -/
def logC (κ : EReal) : EReal := Ideal.sqrt (cA + κ * κ) - cV * Ideal.log (cV + Ideal.sqrt (cB + κ * κ))

/-- A row's contribution to the first factor. -/
def score (κ : EReal) : EReal := -logC κ + lam1 * κ

/-- 1 where the label is not the padding label, 0 where it is. -/
def valid (w : BitVec 32) : EReal := (((IntOp.cmpi .ne w 1#32).toNat : ℝ) : EReal)

/-- Row (b, t) of a [64, 512, 512] array. -/
def rowOf (x : (⟨3, ![64, 512, 512]⟩ : Shape).Idx → EReal) (b : Fin 64) (t : Fin 512) : Fin 512 → EReal :=
  fun k => x (ix3 b t k)

/-- The loss of one step t: a product of two batch sums plus a scaled inner product of two batch sums. -/
def perStep (x y : (⟨3, ![64, 512, 512]⟩ : Shape).Idx → EReal) (tg : (⟨2, ![64, 512]⟩ : Shape).Idx → BitVec 32)
    (t : Fin 512) : EReal :=
  (∑ b : Fin 64, score (norm (rowOf x b t))) * (∑ b : Fin 64, valid (tg (ix2 b t)))
    + nlam2 * ∑ k : Fin 512, (∑ b : Fin 64, unit (rowOf x b t) k) * (∑ b : Fin 64, unit (rowOf y b t) k * valid (tg (ix2 b t)))

/-- The per-step losses as an array of shape [512]. -/
def perStepArr (x y : (⟨3, ![64, 512, 512]⟩ : Shape).Idx → EReal) (tg : (⟨2, ![64, 512]⟩ : Shape).Idx → BitVec 32) :
    (⟨1, ![512]⟩ : Shape).Idx → EReal :=
  fun j => perStep x y tg (j 0)

/-! ## Sixty-four terms, eight at a time -/

/-- The total of the first k groups of eight consecutive terms. -/
def tiles (g : ℕ → EReal) (k : ℕ) : EReal := ∑ k' ∈ Finset.range k, ∑ r : Fin 8, g (8 * k' + r.val)

theorem tiles_zero (g : ℕ → EReal) : tiles g 0 = 0 := Finset.sum_range_zero _

theorem tiles_succ (g : ℕ → EReal) (k : ℕ) : tiles g (k + 1) = tiles g k + ∑ r : Fin 8, g (8 * k + r.val) :=
  Finset.sum_range_succ _ _

theorem tiles_one (g : ℕ → EReal) : tiles g 1 = ∑ r : Fin 8, g (8 * 0 + r.val) := by
  rw [tiles_succ, tiles_zero, zero_add]

/-- Eight groups of eight are all sixty-four: the pair (group, place in the group) to 8 * group + place is a bijection. -/
theorem tiles_eight (g : ℕ → EReal) : tiles g 8 = ∑ b : Fin 64, g b.val := by
  unfold tiles
  rw [Finset.sum_range (fun k' => ∑ r : Fin 8, g (8 * k' + r.val))]
  rw [← Fintype.sum_prod_type' (fun (k' : Fin 8) (r : Fin 8) => g (8 * k'.val + r.val))]
  rw [← Equiv.sum_comp (finProdFinEquiv (m := 8) (n := 8)) (fun b : Fin (8 * 8) => g b.val)]
  refine Finset.sum_congr rfl fun p _ => ?_
  show g _ = g _
  congr 1
  show 8 * p.1.val + p.2.val = p.2.val + 8 * p.1.val
  omega

/-! ## The mask's two spellings -/

/-- A one-bit word widened to 32 bits and read signed is the bit read unsigned. -/
theorem toInt_setWidth_one (b : BitVec 1) : ((b.setWidth 32).toInt : ℝ) = (b.toNat : ℝ) := by
  have h : ∀ b : BitVec 1, (b.setWidth 32).toInt = (b.toNat : ℤ) := by decide
  rw [h b]; simp

end VmfLoss

end
-- ==== Proof.KPayIdx.lean ====
/-
  The kernel body's arithmetic read at an index, over the extended reals.

  A block x of shape [8,128,512] holds eight batch rows of 128 steps; row (r, j) is its 512 features. Read at step j
  (and feature k) each update adds, to what the total held, the sum over the block's eight rows of the row's
  contribution in the vocabulary of the specification: the row's score, its valid-label bit, its unit-length
  scaling, and that scaling masked by the label's validity. The emitted value at step j is the product of the two
  [1,128] totals plus (-lambda2) times the inner product over the features of the two [128,512] totals.
-/
import proofs.«119397_j22170621182543_1_alg».proof.Proof.KUpd
import proofs.«119397_j22170621182543_1_alg».proof.Proof.Spec
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx

/-- Row (r, j) of a block: the 512 features of the block's batch row r at the block's step j. -/
abbrev brow (x : Vec Ideal S8x128x512 .f32) (r : Fin 8) (j : Fin 128) : Fin 512 → EReal := fun k => x (ix3 r j k)

/-! ## A per-row scalar spread along the feature axis

A value v per row (r, j) is first given a trailing unit axis and then repeated along it 512 times: at (r, j, k) the
result is v at (r, j), whatever k. -/

/-- The [8,128] array viewed as [8,128,1] holds at (r, j, 0) what the array holds at (r, j): both lie at row-major
    position 128 r + j. -/
theorem col_cast_apply {α : Type} (v : S8x128.Idx → α) (h : S8x128.ShapeCasts S8x128x1) (r : Fin 8) (j : Fin 128) (u : Fin 1) :
    shapeCast S8x128x1 v h (ix3 r j u) = v (ix2 r j) :=
  shapeCast_apply v h _ _ (by
    have hu : u.val = 0 := by omega
    rw [Shape.rowMajor_val_three, Shape.rowMajor_val_two]
    show r.val * 128 + j.val = (r.val * 128 + j.val) * 1 + u.val
    rw [hu, Nat.mul_one, Nat.add_zero])

/-- The [8,128,1] column repeated along its unit axis holds at (r, j, k) the column's entry at (r, j, 0). -/
theorem col_bcast_apply {α : Type} (w : S8x128x1.Idx → α) (h : S8x128x1.Broadcasts S8x128x512) (r : Fin 8) (j : Fin 128)
    (k : Fin 512) : broadcastTo S8x128x512 w h (ix3 r j k) = w (ix3 r j (0 : Fin 1)) := by
  refine broadcastTo_apply w h (ix3 r j k) (ix3 r j (0 : Fin 1)) fun ax => ?_
  match ax with
  | ⟨0, _⟩ => rfl
  | ⟨1, _⟩ => rfl
  | ⟨2, _⟩ => rfl

/-- The two together: a per-row value spread over the features reads the row's value. -/
theorem spread_apply {α : Type} (v : S8x128.Idx → α) (h : S8x128.ShapeCasts S8x128x1) (h' : S8x128x1.Broadcasts S8x128x512)
    (r : Fin 8) (j : Fin 128) (k : Fin 512) :
    broadcastTo S8x128x512 (shapeCast S8x128x1 v h) h' (ix3 r j k) = v (ix2 r j) :=
  (col_bcast_apply _ h' r j k).trans (col_cast_apply v h r j 0)

/-! ## The indices a single-axis sum runs over -/

/-- Summing a block over its features: the index with feature k put back into (r, j) is (r, j, k). -/
theorem lift_feat (h : S8x128x512.Reduces [2] S8x128) (r : Fin 8) (j : Fin 128) (k : Fin 512) :
    h.lift (ix2 r j) k = ix3 r j k :=
  funext fun a => by match a with | ⟨0, _⟩ => rfl | ⟨1, _⟩ => rfl | ⟨2, _⟩ => rfl

/-- Summing a block over its rows: the index with row r put back into (j, k) is (r, j, k). -/
theorem lift_row3 (h : S8x128x512.Reduces [0] S128x512) (j : Fin 128) (k : Fin 512) (r : Fin 8) :
    h.lift (ix2 j k) r = ix3 r j k :=
  funext fun a => by match a with | ⟨0, _⟩ => rfl | ⟨1, _⟩ => rfl | ⟨2, _⟩ => rfl

/-- Summing an [8,128] array over its rows: the index with row r put back into j is (r, j). -/
theorem lift_row2 (h : S8x128.Reduces [0] S128) (j : Fin 128) (r : Fin 8) : h.lift (ix1 j) r = ix2 r j :=
  funext fun a => by match a with | ⟨0, _⟩ => rfl | ⟨1, _⟩ => rfl

/-- Summing a [128,512] array over its features: the index with feature k put back into j is (j, k). -/
theorem lift_feat2 (h : S128x512.Reduces [1] S128) (j : Fin 128) (k : Fin 512) : h.lift (ix1 j) k = ix2 j k :=
  funext fun a => by match a with | ⟨0, _⟩ => rfl | ⟨1, _⟩ => rfl

/-! ## The per-row pieces -/

/-- The sum of squares of row (r, j), as the kernel takes it: the lane sum of the block times itself. -/
theorem sumsq_apply (x : FVec Ideal S8x128x512 .f32) (hφ : FKind.Formats .f32)
    (hacc : (0x00000000#32 : BitVec 32) = FKind.add.neutral .f32 hφ) (r : Fin 8) (j : Fin 128) :
    multiReduction (F := Ideal) .add [2] S8x128 (mulf x x) 0x00000000#32 reduces_S8x128x512_S8x128 hφ hacc (ix2 r j)
      = ∑ k : Fin 512, x (ix3 r j k) * x (ix3 r j k) := by
  refine (Ideal.multiReduction_add_single (mulf x x) 0x00000000#32 reduces_S8x128x512_S8x128 hφ hacc (ix2 r j)).trans ?_
  refine Finset.sum_congr rfl fun k _ => ?_
  exact congrArg (fun i => x i * x i) (lift_feat _ r j k)

/-- The kernel's norm of row (r, j) is the specification's. -/
theorem pay7_apply (x0 : Vec Ideal S8x128x512 .f32) (r : Fin 8) (j : Fin 128) :
    k0_pay7 x0 (ix2 r j) = VmfLoss.norm (brow x0 r j) := by
  unfold k0_pay7 VmfLoss.norm
  exact congrArg Ideal.sqrt (sumsq_apply x0 _ _ r j)

/-- The kernel's log-normaliser of a row is the specification's at the row's norm. -/
theorem pay10_apply (x0 : Vec Ideal S8x128x512 .f32) (i : S8x128.Idx) :
    k0_pay10 x0 i = VmfLoss.logC (k0_pay7 x0 i) := by
  unfold k0_pay10 VmfLoss.logC
  rfl

/-- A block divided by its rows' guarded norms is, at (r, j, k), the specification's unit row: the divisor spread over
    the features reads the larger of the row's norm and eps. -/
theorem pay8_apply (x0 : Vec Ideal S8x128x512 .f32) (r : Fin 8) (j : Fin 128) (k : Fin 512) :
    k0_pay8 x0 (ix3 r j k) = VmfLoss.unit (brow x0 r j) k := by
  unfold k0_pay8 VmfLoss.unit
  refine congrArg (Ideal.div (x0 (ix3 r j k))) ?_
  refine (spread_apply _ _ _ r j k).trans ?_
  exact congrArg (fun t : EReal => max t VmfLoss.eps) (pay7_apply x0 r j)

/-- The gathered array's unit rows: the same computation on a block first cast to its own shape. -/
theorem pay9_apply (x1 : Vec Ideal S8x128x512 .f32) (r : Fin 8) (j : Fin 128) (k : Fin 512) :
    k0_pay9 x1 (ix3 r j k) = VmfLoss.unit (brow x1 r j) k := by
  have e : k0_pay9 x1 = k0_pay8 (shapeCast S8x128x512 x1 shapeCasts_S8x128x512_S8x128x512) := rfl
  refine (congrFun e _).trans ?_
  refine (congrArg (fun v => k0_pay8 (F := Ideal) v (ix3 r j k)) (shapeCast_self x1 _)).trans ?_
  exact pay8_apply x1 r j k

/-- The label mask: the one-bit "label is not 1", widened and read as a signed integer, is the bit as a real. -/
theorem pay12_apply (x2 : Vec Ideal S8x128 .i32) (i : S8x128.Idx) :
    k0_pay12 (F := Ideal) x2 k0_pay11 i = VmfLoss.valid (x2 i) := by
  unfold k0_pay12 k0_pay11 VmfLoss.valid
  exact congrArg (fun t : ℝ => (t : EReal)) (VmfLoss.toInt_setWidth_one _)

/-! ## The single-axis sums over rows and over features, read at an index given by coordinates -/

/-- An [8,128] array summed over its eight rows, at step j. -/
theorem rowsum2_apply (v : FVec Ideal S8x128 .f32) (hφ : FKind.Formats .f32)
    (hacc : (0x00000000#32 : BitVec 32) = FKind.add.neutral .f32 hφ) (j : Fin 128) :
    multiReduction (F := Ideal) .add [0] S128 v 0x00000000#32 reduces_S8x128_S128 hφ hacc (ix1 j)
      = ∑ r : Fin 8, v (ix2 r j) := by
  refine (Ideal.multiReduction_add_single v 0x00000000#32 reduces_S8x128_S128 hφ hacc (ix1 j)).trans ?_
  exact Finset.sum_congr rfl fun r _ => congrArg v (lift_row2 _ j r)

/-- A block summed over its eight rows, at (j, k). -/
theorem rowsum3_apply (v : FVec Ideal S8x128x512 .f32) (hφ : FKind.Formats .f32)
    (hacc : (0x00000000#32 : BitVec 32) = FKind.add.neutral .f32 hφ) (j : Fin 128) (k : Fin 512) :
    multiReduction (F := Ideal) .add [0] S128x512 v 0x00000000#32 reduces_S8x128x512_S128x512 hφ hacc (ix2 j k)
      = ∑ r : Fin 8, v (ix3 r j k) := by
  refine (Ideal.multiReduction_add_single v 0x00000000#32 reduces_S8x128x512_S128x512 hφ hacc (ix2 j k)).trans ?_
  exact Finset.sum_congr rfl fun r _ => congrArg v (lift_row3 _ j k r)

/-- A [128,512] array summed over its features, at step j. -/
theorem featsum2_apply (v : FVec Ideal S128x512 .f32) (hφ : FKind.Formats .f32)
    (hacc : (0x00000000#32 : BitVec 32) = FKind.add.neutral .f32 hφ) (j : Fin 128) :
    multiReduction (F := Ideal) .add [1] S128 v 0x00000000#32 reduces_S128x512_S128 hφ hacc (ix1 j)
      = ∑ k : Fin 512, v (ix2 j k) := by
  refine (Ideal.multiReduction_add_single v 0x00000000#32 reduces_S128x512_S128 hφ hacc (ix1 j)).trans ?_
  exact Finset.sum_congr rfl fun k _ => congrArg v (lift_feat2 _ j k)

/-! ## The reset payloads -/

theorem zero0_apply (i : S1x128.Idx) : (k0_pay3 (F := Ideal)) i = 0 := by
  unfold k0_pay3
  refine (congrFun (shapeCast_self _ _) i).trans ?_
  exact Ideal.ofBits_zero_f32
theorem zero1_apply (i : S1x128.Idx) : (k0_pay4 (F := Ideal)) i = 0 := by
  unfold k0_pay4
  refine (congrFun (shapeCast_self _ _) i).trans ?_
  exact Ideal.ofBits_zero_f32
theorem zero2_apply (i : S128x512.Idx) : (k0_pay5 (F := Ideal)) i = 0 := by
  unfold k0_pay5
  refine (congrFun (shapeCast_self _ _) i).trans ?_
  exact Ideal.ofBits_zero_f32
theorem zero3_apply (i : S128x512.Idx) : (k0_pay6 (F := Ideal)) i = 0 := by
  unfold k0_pay6
  refine (congrFun (shapeCast_self _ _) i).trans ?_
  exact Ideal.ofBits_zero_f32

/-! ## The updates and the emitted value -/

theorem upd0_apply (x0 : Vec Ideal S8x128x512 .f32) (p : Vec Ideal S1x128 .f32) (j : Fin 128) :
    upd0 x0 p (ix2 (0 : Fin 1) j) = p (ix2 (0 : Fin 1) j) + ∑ r : Fin 8, VmfLoss.score (VmfLoss.norm (brow x0 r j)) := by
  show k0_pay13 (k0_pay7 x0) (k0_pay10 x0) p (ix2 (0 : Fin 1) j) = _
  unfold k0_pay13
  refine (congrFun (shapeCast_self _ _) _).trans ?_
  refine congrArg (fun t : EReal => (p (ix2 (0 : Fin 1) j) : EReal) + t) ?_
  refine (shapeCast_a_1a_apply _ _ (0 : Fin 1) j).trans ?_
  refine (rowsum2_apply _ _ _ j).trans ?_
  refine Finset.sum_congr rfl fun r _ => ?_
  -- a row's term: (0 - logC) + lambda1 * norm, the kernel's spelling of the score
  show (Ideal.ofBits .f32 0x00000000#32 - k0_pay10 x0 (ix2 r j)) + VmfLoss.lam1 * k0_pay7 x0 (ix2 r j) = _
  rw [pay10_apply, pay7_apply, Ideal.ofBits_zero_f32, zero_sub]
  rfl

theorem upd1_apply (x2 : Vec Ideal S8x128 .i32) (p : Vec Ideal S1x128 .f32) (j : Fin 128) :
    upd1 x2 p (ix2 (0 : Fin 1) j) = p (ix2 (0 : Fin 1) j) + ∑ r : Fin 8, VmfLoss.valid (x2 (ix2 r j)) := by
  show k0_pay14 x2 k0_pay11 p (ix2 (0 : Fin 1) j) = _
  unfold k0_pay14
  refine (congrFun (shapeCast_self _ _) _).trans ?_
  refine congrArg (fun t : EReal => (p (ix2 (0 : Fin 1) j) : EReal) + t) ?_
  refine (shapeCast_a_1a_apply _ _ (0 : Fin 1) j).trans ?_
  refine (rowsum2_apply _ _ _ j).trans ?_
  exact Finset.sum_congr rfl fun r _ => pay12_apply x2 (ix2 r j)

theorem upd2_apply (x0 : Vec Ideal S8x128x512 .f32) (p : Vec Ideal S128x512 .f32) (j : Fin 128) (k : Fin 512) :
    upd2 x0 p (ix2 j k) = p (ix2 j k) + ∑ r : Fin 8, VmfLoss.unit (brow x0 r j) k := by
  show k0_pay15 (k0_pay8 x0) p (ix2 j k) = _
  unfold k0_pay15
  refine (congrFun (shapeCast_self _ _) _).trans ?_
  refine congrArg (fun t : EReal => (p (ix2 j k) : EReal) + t) ?_
  refine (rowsum3_apply _ _ _ j k).trans ?_
  exact Finset.sum_congr rfl fun r _ => pay8_apply x0 r j k

theorem upd3_apply (x1 : Vec Ideal S8x128x512 .f32) (x2 : Vec Ideal S8x128 .i32) (p : Vec Ideal S128x512 .f32)
    (j : Fin 128) (k : Fin 512) :
    upd3 x1 x2 p (ix2 j k) = p (ix2 j k) + ∑ r : Fin 8, VmfLoss.unit (brow x1 r j) k * VmfLoss.valid (x2 (ix2 r j)) := by
  show k0_pay1 (k0_pay16 x2 (k0_pay9 x1) k0_pay11 p) (ix2 j k) = _
  unfold k0_pay1 k0_pay16
  refine (congrFun (shapeCast_self _ _) _).trans ?_
  refine congrArg (fun t : EReal => (p (ix2 j k) : EReal) + t) ?_
  refine (rowsum3_apply _ _ _ j k).trans ?_
  refine Finset.sum_congr rfl fun r _ => ?_
  -- a row's term: the unit row times the row's mask spread over the features
  refine congr (congrArg (fun a b : EReal => a * b) (pay9_apply x1 r j k)) ?_
  exact (spread_apply _ _ _ r j k).trans (pay12_apply x2 (ix2 r j))

theorem emit_apply (s0 s1 : Vec Ideal S1x128 .f32) (s2 s3 : Vec Ideal S128x512 .f32) (j : Fin 128) :
    emit s0 s1 s2 s3 (ix1 j)
      = s0 (ix2 (0 : Fin 1) j) * s1 (ix2 (0 : Fin 1) j) + VmfLoss.nlam2 * ∑ k : Fin 512, s2 (ix2 j k) * s3 (ix2 j k) := by
  show k0_pay2 s0 s1 s2 s3 (ix1 j) = _
  unfold k0_pay2
  refine congr (congrArg (fun a b : EReal => a + b) ?_) (congrArg (fun t : EReal => VmfLoss.nlam2 * t) ?_)
  · exact shapeCast_1a_a_apply _ _ j
  · exact featsum2_apply _ _ _ j

end Cert.KernelIdeal.KValue

end
-- ==== Proof.TilesRec.lean ====
/-
  A total kept over a grid whose batch tile moves fastest is a sum of whole groups of eight.

  Number the grid's points n = 8 * (step tile) + (batch tile). Suppose a quantity s is reset at the first point of
  every step tile (s n = 0 + q n when n is divisible by 8) and otherwise grows by the point's contribution
  (s (n + 1) = s n + q (n + 1)), and that point n contributes the eight terms g (n / 8) (8 * (n mod 8) + r), r < 8,
  of a family g indexed by the step tile and the batch row. Then after point n the quantity is the total of the first
  (n mod 8) + 1 groups of eight of g (n / 8): by induction on n, one group per point.
-/
import proofs.«119397_j22170621182543_1_alg».proof.Proof.Spec

noncomputable section

namespace VmfLoss

theorem tiles_of_rec (N : ℕ) (s q : ℕ → EReal) (g : ℕ → ℕ → EReal)
    (hfresh : ∀ n, n < N → n % 8 = 0 → s n = 0 + q n)
    (hnext : ∀ n, n + 1 < N → ¬(n + 1) % 8 = 0 → s (n + 1) = s n + q (n + 1))
    (hq : ∀ n, n < N → q n = ∑ r : Fin 8, g (n / 8) (8 * (n % 8) + r.val)) :
    ∀ n, n < N → s n = tiles (g (n / 8)) (n % 8 + 1)
  | 0, h => by
    rw [hfresh 0 h rfl, zero_add, hq 0 h]
    show ∑ r : Fin 8, g 0 (8 * 0 + r.val) = tiles (g 0) 1
    rw [tiles_one]
  | n + 1, h => by
    by_cases h0 : (n + 1) % 8 = 0
    · rw [hfresh (n + 1) h h0, zero_add, hq (n + 1) h, h0, Nat.zero_add, tiles_one]
    · have ih := tiles_of_rec N s q g hfresh hnext hq n (Nat.lt_of_succ_lt h)
      have e1 : (n + 1) / 8 = n / 8 := by omega
      have e2 : (n + 1) % 8 = n % 8 + 1 := by omega
      rw [hnext n h h0, ih, hq (n + 1) h, e1, e2]
      exact (tiles_succ (g (n / 8)) (n % 8 + 1)).symm

end VmfLoss

end
-- ==== Proof.KSums.lean ====
/-
  The totals and the emitted block over the extended reals, as sums over the arrays the region finds.

  Point n = 8 * (step tile) + (batch tile) reads, through its three windows, batch rows 8 * (n mod 8) .. + 7 at steps
  128 * (n / 8) .. + 127 of the first array, of the gathered array and of the labels. So each total after point n, read
  at place j of the step tile (and feature k), is the sum of the rows' contributions over the first (n mod 8) + 1
  groups of eight batch rows at step 128 * (n / 8) + j; after a step tile's last point that is the sum over all 64
  batch rows, and what the point emits at place j is the loss of that step.
-/
import proofs.«119397_j22170621182543_1_alg».proof.Proof.Gen.KernelIdeal.Frame
import proofs.«119397_j22170621182543_1_alg».proof.Proof.KTotals
import proofs.«119397_j22170621182543_1_alg».proof.Proof.KPayIdx
import proofs.«119397_j22170621182543_1_alg».proof.Proof.TilesRec
import Idealize.ShloMosaic.Lib.Pipeline.Value

noncomputable section

open Idealize.ShloMosaic Idealize.ShloMosaic.TcCoe Idealize.SL.Sem

namespace Cert.KernelIdeal.KValue

open Cert.KernelIdeal Cert.KernelIdeal.Gen Idealize.ShloMosaic.ValueIdx

variable (m : (ℓ : Loc nD τ sig) → Buf (Elt Ideal) ℓ)

/-- The three arrays the windows stage, as the region finds them: the first argument, the gathered rows, the labels. -/
abbrev xarr (c : Dev nD) : S64x512x512.Idx → EReal := V m c main_arg0
abbrev yarr (c : Dev nD) : S64x512x512.Idx → EReal := V m c main_v6
abbrev garr (c : Dev nD) : S64x512.Idx → BitVec 32 := V m c main_arg1

/-- The windows' block indices at a grid point: the batch tile is the point's number mod 8, the step tile its
    quotient by 8 (decided over the 32 points). -/
theorem idx_x : ∀ t : Fin cfg0.N, win0_0.index t 0 = t.val % 8 ∧ win0_0.index t 1 = t.val / 8 ∧ win0_0.index t 2 = 0 :=
  (by decide +kernel : ∀ t : Fin grid0.N, win0_0.index t 0 = t.val % 8 ∧ win0_0.index t 1 = t.val / 8 ∧ win0_0.index t 2 = 0)
theorem idx_y : ∀ t : Fin cfg0.N, win0_1.index t 0 = t.val % 8 ∧ win0_1.index t 1 = t.val / 8 ∧ win0_1.index t 2 = 0 :=
  (by decide +kernel : ∀ t : Fin grid0.N, win0_1.index t 0 = t.val % 8 ∧ win0_1.index t 1 = t.val / 8 ∧ win0_1.index t 2 = 0)
theorem idx_g : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- An entry of a block is the array's entry at the block's offset plus the place in the block. -/
theorem xblk_apply (c : Dev nD) (t : Fin cfg0.N) (n : ℕ) (hv : t.val = n) (r : Fin 8) (j : Fin 128) (k : Fin 512)
    (hb : 8 * (n % 8) + r.val < 64) (ht : 128 * (n / 8) + j.val < 512) :
    xblk m c t (ix3 r j k) = xarr m c (ix3 ⟨8 * (n % 8) + r.val, hb⟩ ⟨128 * (n / 8) + j.val, ht⟩ k) := by
  subst hv
  unfold xblk iblk
  rw [View.read_apply]
  show V m c main_arg0 _ = V m c main_arg0 _
  congr 1
  funext a
  apply Fin.ext
  match a with
  | ⟨0, _⟩ => show win0_0.index t 0 * 8 + 1 * r.val = 8 * (t.val % 8) + r.val; rw [(idx_x t).1]; omega
  | ⟨1, _⟩ => show win0_0.index t 1 * 128 + 1 * j.val = 128 * (t.val / 8) + j.val; rw [(idx_x t).2.1]; omega
  | ⟨2, _⟩ => show win0_0.index t 2 * 512 + 1 * k.val = k.val; rw [(idx_x t).2.2]; omega

theorem yblk_apply (c : Dev nD) (t : Fin cfg0.N) (n : ℕ) (hv : t.val = n) (r : Fin 8) (j : Fin 128) (k : Fin 512)
    (hb : 8 * (n % 8) + r.val < 64) (ht : 128 * (n / 8) + j.val < 512) :
    yblk m c t (ix3 r j k) = yarr m c (ix3 ⟨8 * (n % 8) + r.val, hb⟩ ⟨128 * (n / 8) + j.val, ht⟩ k) := by
  subst hv
  unfold yblk iblk
  rw [View.read_apply]
  show V m c main_v6 _ = V m c main_v6 _
  congr 1
  funext a
  apply Fin.ext
  match a with
  | ⟨0, _⟩ => show win0_1.index t 0 * 8 + 1 * r.val = 8 * (t.val % 8) + r.val; rw [(idx_y t).1]; omega
  | ⟨1, _⟩ => show win0_1.index t 1 * 128 + 1 * j.val = 128 * (t.val / 8) + j.val; rw [(idx_y t).2.1]; omega
  | ⟨2, _⟩ => show win0_1.index t 2 * 512 + 1 * k.val = k.val; rw [(idx_y t).2.2]; omega

theorem gblk_apply (c : Dev nD) (t : Fin cfg0.N) (n : ℕ) (hv : t.val = n) (r : Fin 8) (j : Fin 128)
    (hb : 8 * (n % 8) + r.val < 64) (ht : 128 * (n / 8) + j.val < 512) :
    gblk m c t (ix2 r j) = garr m c (ix2 ⟨8 * (n % 8) + r.val, hb⟩ ⟨128 * (n / 8) + j.val, ht⟩) := by
  subst hv
  unfold gblk iblk
  rw [View.read_apply]
  show V m c main_arg1 _ = V m c main_arg1 _
  congr 1
  funext a
  apply Fin.ext
  match a with
  | ⟨0, _⟩ => show win0_2.index t 0 * 8 + 1 * r.val = 8 * (t.val % 8) + r.val; rw [(idx_g t).1]; omega
  | ⟨1, _⟩ => show win0_2.index t 1 * 128 + 1 * j.val = 128 * (t.val / 8) + j.val; rw [(idx_g t).2]; omega

/-! ## Rows by plain numbers -/

/-- Row (b, t) of a [64,512,512] array by plain numbers (the zero row outside the array, where it is never used). -/
def at3 (x : S64x512x512.Idx → EReal) (b t : ℕ) : Fin 512 → EReal :=
  fun k => if h : b < 64 ∧ t < 512 then x (ix3 ⟨b, h.1⟩ ⟨t, h.2⟩ k) else 0

/-- Label (b, t) by plain numbers. -/
def at2 (g : S64x512.Idx → BitVec 32) (b t : ℕ) : BitVec 32 :=
  if h : b < 64 ∧ t < 512 then g (ix2 ⟨b, h.1⟩ ⟨t, h.2⟩) else 0

theorem at3_mk (x : S64x512x512.Idx → EReal) (b : Fin 64) (t : ℕ) (ht : t < 512) :
    at3 x b.val t = VmfLoss.rowOf x b ⟨t, ht⟩ := by
  funext k
  unfold at3 VmfLoss.rowOf
  rw [dif_pos ⟨b.isLt, ht⟩]

theorem at2_mk (g : S64x512.Idx → BitVec 32) (b : Fin 64) (t : ℕ) (ht : t < 512) :
    at2 g b.val t = g (ix2 b ⟨t, ht⟩) := by
  unfold at2
  rw [dif_pos ⟨b.isLt, ht⟩]

/-- The rows a point's blocks hold. -/
theorem xrow (c : Dev nD) (n : ℕ) (hn : n < 32) (r : Fin 8) (j : Fin 128) :
    brow (xblk m c (pt n)) r j = at3 (xarr m c) (8 * (n % 8) + r.val) (128 * (n / 8) + j.val) := by
  have hr := r.isLt
  have hj := j.isLt
  funext k
  unfold at3
  rw [dif_pos ⟨by omega, by omega⟩]
  exact xblk_apply m c (pt n) n (pt_val n hn) r j k _ _

theorem yrow (c : Dev nD) (n : ℕ) (hn : n < 32) (r : Fin 8) (j : Fin 128) :
    brow (yblk m c (pt n)) r j = at3 (yarr m c) (8 * (n % 8) + r.val) (128 * (n / 8) + j.val) := by
  have hr := r.isLt
  have hj := j.isLt
  funext k
  unfold at3
  rw [dif_pos ⟨by omega, by omega⟩]
  exact yblk_apply m c (pt n) n (pt_val n hn) r j k _ _

theorem glab (c : Dev nD) (n : ℕ) (hn : n < 32) (r : Fin 8) (j : Fin 128) :
    gblk m c (pt n) (ix2 r j) = at2 (garr m c) (8 * (n % 8) + r.val) (128 * (n / 8) + j.val) := by
  have hr := r.isLt
  have hj := j.isLt
  unfold at2
  rw [dif_pos ⟨by omega, by omega⟩]
  exact gblk_apply m c (pt n) n (pt_val n hn) r j _ _

/-! ## The four totals after point n -/

theorem total0 (c : Dev nD) (n : ℕ) (hn : n < 32) (j : Fin 128) :
    (totals m c n).1 (ix2 (0 : Fin 1) j)
      = VmfLoss.tiles (fun b => VmfLoss.score (VmfLoss.norm (at3 (xarr m c) b (128 * (n / 8) + j.val)))) (n % 8 + 1) :=
  VmfLoss.tiles_of_rec 32 (fun n => (totals m c n).1 (ix2 (0 : Fin 1) j))
    (fun n => ∑ r : Fin 8, VmfLoss.score (VmfLoss.norm (brow (xblk m c (pt n)) r j)))
    (fun ti b => VmfLoss.score (VmfLoss.norm (at3 (xarr m c) b (128 * ti + j.val))))
    (fun n _ h0 => by
      show (totals m c n).1 (ix2 (0 : Fin 1) j) = 0 + _
      rw [totals_fresh m c n h0]
      show upd0 (xblk m c (pt n)) (k0_pay3 (F := Ideal)) (ix2 (0 : Fin 1) j) = _
      rw [upd0_apply, zero0_apply])
    (fun n _ h0 => by
      show (totals m c (n + 1)).1 (ix2 (0 : Fin 1) j) = (totals m c n).1 (ix2 (0 : Fin 1) j) + _
      rw [totals_next m c n h0]
      exact upd0_apply _ _ j)
    (fun n hn => Finset.sum_congr rfl fun r _ => by rw [xrow m c n hn r j])
    n hn

theorem total1 (c : Dev nD) (n : ℕ) (hn : n < 32) (j : Fin 128) :
    (totals m c n).2.1 (ix2 (0 : Fin 1) j)
      = VmfLoss.tiles (fun b => VmfLoss.valid (at2 (garr m c) b (128 * (n / 8) + j.val))) (n % 8 + 1) :=
  VmfLoss.tiles_of_rec 32 (fun n => (totals m c n).2.1 (ix2 (0 : Fin 1) j))
    (fun n => ∑ r : Fin 8, VmfLoss.valid (gblk m c (pt n) (ix2 r j)))
    (fun ti b => VmfLoss.valid (at2 (garr m c) b (128 * ti + j.val)))
    (fun n _ h0 => by
      show (totals m c n).2.1 (ix2 (0 : Fin 1) j) = 0 + _
      rw [totals_fresh m c n h0]
      show upd1 (gblk m c (pt n)) (k0_pay4 (F := Ideal)) (ix2 (0 : Fin 1) j) = _
      rw [upd1_apply, zero1_apply])
    (fun n _ h0 => by
      show (totals m c (n + 1)).2.1 (ix2 (0 : Fin 1) j) = (totals m c n).2.1 (ix2 (0 : Fin 1) j) + _
      rw [totals_next m c n h0]
      exact upd1_apply _ _ j)
    (fun n hn => Finset.sum_congr rfl fun r _ => by rw [glab m c n hn r j])
    n hn

theorem total2 (c : Dev nD) (n : ℕ) (hn : n < 32) (j : Fin 128) (k : Fin 512) :
    (totals m c n).2.2.1 (ix2 j k)
      = VmfLoss.tiles (fun b => VmfLoss.unit (at3 (xarr m c) b (128 * (n / 8) + j.val)) k) (n % 8 + 1) :=
  VmfLoss.tiles_of_rec 32 (fun n => (totals m c n).2.2.1 (ix2 j k))
    (fun n => ∑ r : Fin 8, VmfLoss.unit (brow (xblk m c (pt n)) r j) k)
    (fun ti b => VmfLoss.unit (at3 (xarr m c) b (128 * ti + j.val)) k)
    (fun n _ h0 => by
      show (totals m c n).2.2.1 (ix2 j k) = 0 + _
      rw [totals_fresh m c n h0]
      show upd2 (xblk m c (pt n)) (k0_pay5 (F := Ideal)) (ix2 j k) = _
      rw [upd2_apply, zero2_apply])
    (fun n _ h0 => by
      show (totals m c (n + 1)).2.2.1 (ix2 j k) = (totals m c n).2.2.1 (ix2 j k) + _
      rw [totals_next m c n h0]
      exact upd2_apply _ _ j k)
    (fun n hn => Finset.sum_congr rfl fun r _ => by rw [xrow m c n hn r j])
    n hn

theorem total3 (c : Dev nD) (n : ℕ) (hn : n < 32) (j : Fin 128) (k : Fin 512) :
    (totals m c n).2.2.2 (ix2 j k)
      = VmfLoss.tiles (fun b => VmfLoss.unit (at3 (yarr m c) b (128 * (n / 8) + j.val)) k
          * VmfLoss.valid (at2 (garr m c) b (128 * (n / 8) + j.val))) (n % 8 + 1) :=
  VmfLoss.tiles_of_rec 32 (fun n => (totals m c n).2.2.2 (ix2 j k))
    (fun n => ∑ r : Fin 8, VmfLoss.unit (brow (yblk m c (pt n)) r j) k * VmfLoss.valid (gblk m c (pt n) (ix2 r j)))
    (fun ti b => VmfLoss.unit (at3 (yarr m c) b (128 * ti + j.val)) k * VmfLoss.valid (at2 (garr m c) b (128 * ti + j.val)))
    (fun n _ h0 => by
      show (totals m c n).2.2.2 (ix2 j k) = 0 + _
      rw [totals_fresh m c n h0]
      show upd3 (yblk m c (pt n)) (gblk m c (pt n)) (k0_pay6 (F := Ideal)) (ix2 j k) = _
      rw [upd3_apply, zero3_apply])
    (fun n _ h0 => by
      show (totals m c (n + 1)).2.2.2 (ix2 j k) = (totals m c n).2.2.2 (ix2 j k) + _
      rw [totals_next m c n h0]
      exact upd3_apply _ _ _ j k)
    (fun n hn => Finset.sum_congr rfl fun r _ => by rw [yrow m c n hn r j, glab m c n hn r j])
    n hn

/-! ## What a step tile's last point emits -/

/-- At the last point of a step tile the output block holds, at place j, the loss of step 128 * (n / 8) + j. -/
theorem emitted (c : Dev nD) (n : ℕ) (hn : n < cfg0.N) (h7 : n % 8 = 7) (j : Fin 128) (ht : 128 * (n / 8) + j.val < 512) :
    (outsAt0 m c n hn).1 (ix1 j) = VmfLoss.perStep (xarr m c) (yarr m c) (garr m c) ⟨128 * (n / 8) + j.val, ht⟩ := by
  have hn' : n < 32 := lt_of_lt_of_eq hn N_0
  rw [outsAt_emit m c n hn h7]
  refine (emit_apply _ _ _ _ j).trans ?_
  rw [total0 m c n hn' j, total1 m c n hn' j]
  rw [Finset.sum_congr rfl fun k _ => by rw [total2 m c n hn' j k, total3 m c n hn' j k]]
  rw [h7]
  show VmfLoss.tiles _ 8 * VmfLoss.tiles _ 8 + VmfLoss.nlam2 * ∑ k : Fin 512, VmfLoss.tiles _ 8 * VmfLoss.tiles _ 8 = _
  simp only [VmfLoss.tiles_eight, at3_mk _ _ _ ht, at2_mk _ _ _ ht]
  rfl

end Cert.KernelIdeal.KValue

end
-- ==== Proof.KFinal.lean ====
/-
  The kernel's run, read: the result is the sum over the 512 steps of the per-step loss of the arrays it was given.

  Only the last point of each step tile writes the output window back, and what it writes at place j is the loss of step
  128 * (step tile) + j: block (step tile) of the array of per-step losses. The four step tiles' blocks cover the [512]
  array, so after the region that array IS the per-step losses; the host operations after the region sum it from zero.
  The gathered array the second window stages is what the host operations before the region compute from the labels
  and the embedding table; it is carried as one term and never opened.
-/
import proofs.«119397_j22170621182543_1_alg».proof.Proof.KSums
import Idealize.ShloMosaic.Lib.StableHlo.Run

noncomputable section

open Idealize.ShloMosaic Idealize.ShloMosaic.TcCoe Idealize.SL.Sem

namespace Cert.KernelIdeal.KValue

open Cert.KernelIdeal Cert.KernelIdeal.Gen Idealize.ShloMosaic.ValueIdx

/-- The rows of the embedding table the labels select, as the host operations before the region compute them
    (a negative label counted from the table's end, then the gather). Generic in the float instance. -/
def gathered {F : FTy → Type} [FloatOps F] (tg : (⟨S64x512, .i32⟩ : BufTy).Contents (Elt F))
    (e : (⟨S32000x512, .f32⟩ : BufTy).Contents (Elt F)) : (⟨S64x512x512, .f32⟩ : BufTy).Contents (Elt F) :=
  Host.gather gather_S32000x512_S64x512x1_S64x512x512_2_0_n_n_0_2_1512 e
    (broadcastInDim S64x512x1 ![0, 1] bcast_S64x512_S64x512x1_0_1
      (select (cmpi .slt tg (broadcastInDim S64x512 ![] bcast_S_S64x512 (constantI S_ 32 0#32)))
        (addi tg (broadcastInDim S64x512 ![] bcast_S_S64x512 (constantI S_ 32 32000#32))) tg))

/-- The sum of a [512] array from zero, as the host computes it after the region. Generic in the float instance. -/
def total {F : FTy → Type} [FloatOps F] (v : (⟨S512, .f32⟩ : BufTy).Contents (Elt F)) : (⟨S_, .f32⟩ : BufTy).Contents (Elt F) :=
  Host.reduceAdd v (constant (F := F) S_ .f32 0x00000000#32) reducesTo_S512_S_d0 h_S_

variable (m : (ℓ : Loc nD τ sig) → Buf (Elt Ideal) ℓ) (ρ : Dev nD → PrngReg)

/-- The array of per-step losses of the arrays the region finds. -/
abbrev result (c : Dev nD) : S512.Idx → EReal := VmfLoss.perStepArr (xarr m c) (yarr m c) (garr m c)

/-- The output window's block index is the step tile. -/
theorem idx_o : ∀ t : Fin cfg0.N, win0_3.index t 0 = t.val / 8 :=
  (by decide +kernel : ∀ t : Fin grid0.N, win0_3.index t 0 = t.val / 8)

/-- What a step tile's last point writes back is that step tile's block of the per-step losses. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 32 := lt_of_lt_of_eq t.isLt N_0
  show (cfg0.win 3).cut (grid0.coords t) ((dats m 0 c).after 3 t) = _
  rw [after0_3]
  funext y
  have hlt : (y 0).val < 128 := (y 0).isLt
  have ht : 128 * (t.val / 8) + (y 0).val < 512 := by omega
  have hy : (y : S128.Idx) = ix1 ⟨(y 0).val, hlt⟩ := funext fun d => by match d with | ⟨0, _⟩ => rfl
  show (outsAt0 m c t.val t.isLt).1 y = result m c (((cfg0.win 3).blk t).view.emb y)
  refine (congrArg (outsAt0 m c t.val t.isLt).1 hy).trans ((emitted m c t.val t.isLt h7 ⟨(y 0).val, hlt⟩ ht).trans ?_)
  show VmfLoss.perStep _ _ _ _ = VmfLoss.perStep _ _ _ ((((cfg0.win 3).blk t).view.emb y) 0)
  congr 1
  apply Fin.ext
  show 128 * (t.val / 8) + (y 0).val = win0_3.index t 0 * 128 + 1 * (y 0).val
  rw [idx_o t]
  omega

/-- An index of the [512] array is in a point's output block iff it lies in the block's range. -/
theorem mem_blk (t : Fin cfg0.N) (i : S512.Idx) :
    i ∈ ((cfg0.win 3).blk t).view.set
      ↔ ∀ a : Fin 1, win0_3.index t a * S128.size a ≤ (i a).val ∧ (i a).val < win0_3.index t a * S128.size a + S128.size a := by
  show i ∈ ((View.whole main_v7).slice (win0_3.rect t)).set ↔ _
  rw [View.set_slice_whole, Rect.mem_set_unit]
  exact Iff.rfl

/-- After the region the output array is the per-step losses: step i lies in the block the last point of step tile
    i / 128 writes back. -/
theorem final (c : Dev nD) : (dats m 0 c).arrAt 3 cfg0.N = result m c :=
  (dats m 0 c).arrAt_eq_of_cover 3 (result m c) (flushed_eq m c) fun i => by
    have hi : (i 0).val < 512 := (i 0).isLt
    refine ⟨⟨8 * ((i 0).val / 128) + 7, lt_of_lt_of_eq (by omega : 8 * ((i 0).val / 128) + 7 < 32) N_0.symm⟩,
      (flush0_3 _).mpr (by show (8 * ((i 0).val / 128) + 7) % 8 = 7; omega), ?_⟩
    rw [mem_blk]
    intro a
    match a with
    | ⟨0, _⟩ =>
      show win0_3.index _ 0 * 128 ≤ (i 0).val ∧ (i 0).val < win0_3.index _ 0 * 128 + 128
      rw [idx_o]
      show (8 * ((i 0).val / 128) + 7) / 8 * 128 ≤ (i 0).val ∧ (i 0).val < (8 * ((i 0).val / 128) + 7) / 8 * 128 + 128
      omega

/-- The second window's array, as the region finds it, is the gathered rows of the launch contents. -/
theorem yarr_eq (c : Dev nD) :
    yarr m c = gathered (F := Ideal) (m ((c : Thread nD τ).loc main_arg1)) (m ((c : Thread nD τ).loc main_arg2)) := by
  show StableHlo.after hostOps0 (fun b => m (c, b)) (Proc.devRef .tc main_v6) = _
  after_results
  rfl

/-- The host operations after the region sum the output array from zero. -/
theorem tail_eq (c : Dev nD) :
    Pipeline.afterTail₀ cfgs (dats m) 0 (V0 m) [hostOps1] c main_v8 = total (F := Ideal) (result m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = result m c :=
    (Pipeline.withArrays_arr spec0 launch0.win.arr_inj c _ _ 3).trans (final m c)
  rw [e]
  rfl

/-- The per-step losses of the arrays the region finds are those of the launch contents: no host operation before the
    region writes the first argument or the labels, and the gathered rows are computed from the labels and the table. -/
theorem result_eq (c : Dev nD) :
    result m c = VmfLoss.perStepArr (m ((c : Thread nD τ).loc main_arg0))
      (gathered (F := Ideal) (m ((c : Thread nD τ).loc main_arg1)) (m ((c : Thread nD τ).loc main_arg2)))
      (m ((c : Thread nD τ).loc main_arg1)) := by
  unfold result xarr garr
  rw [yarr_eq m c, V_main_arg0 m c, V_main_arg1 m c]

/-- The run, read: every weakly fair execution terminates with the result at the sum from zero of the per-step losses
    and the three arguments unchanged. -/
theorem run : θ_run defs (onTc (τ := τ) (main (F := Ideal))) ⟨m, fun _ => 0, ρ⟩ fun r => ∀ c : Dev nD,
      r.2.mem ((c.tc : Thread nD τ).loc main_v8) = total (F := Ideal) (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefStep.lean ====
/-
  The reference, read one operation at a time: the [512] array it sums at the end holds, at step t, the loss of
  step t of the specification, of the first array, the gathered array and the labels.
-/
import proofs.«119397_j22170621182543_1_alg».proof.Proof.Gen.ReferenceIdeal.Read
import proofs.«119397_j22170621182543_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The index maps of the layout operations and of the sums, at coordinates

Each map keeps, drops or adds a coordinate; on an index written by its coordinates it is again an index written by
its coordinates. -/

section Indices
variable (b : Fin 64) (t k : Fin 512) (z : Fin 1)

theorem idx_call0_v1 : idx_main_call0_v1 (ix2 b t) k = ix3 b t k :=
  funext fun a => Fin.ext (by match a with | ⟨0, _⟩ => rfl | ⟨1, _⟩ => rfl | ⟨2, _⟩ => rfl)
theorem idx_call1_v1 : idx_main_call1_v1 (ix2 b t) k = ix3 b t k :=
  funext fun a => Fin.ext (by match a with | ⟨0, _⟩ => rfl | ⟨1, _⟩ => rfl | ⟨2, _⟩ => rfl)
theorem idx_call2_v1 : idx_main_call2_v1 (ix2 b t) k = ix3 b t k :=
  funext fun a => Fin.ext (by match a with | ⟨0, _⟩ => rfl | ⟨1, _⟩ => rfl | ⟨2, _⟩ => rfl)
theorem idx_call0_v2 : idx_main_call0_v2 (ix3 b t z) = ix2 b t :=
  funext fun a => Fin.ext (by match a with | ⟨0, _⟩ => rfl | ⟨1, _⟩ => rfl)
theorem idx_call1_v2 : idx_main_call1_v2 (ix3 b t z) = ix2 b t :=
  funext fun a => Fin.ext (by match a with | ⟨0, _⟩ => rfl | ⟨1, _⟩ => rfl)
theorem idx_v10 : idx_main_v10 (ix3 b t k) = ix3 b t (0 : Fin 1) :=
  funext fun a => Fin.ext (by match a with | ⟨0, _⟩ => rfl | ⟨1, _⟩ => rfl | ⟨2, _⟩ => rfl)
theorem idx_v15 : idx_main_v15 (ix3 b t k) = ix3 b t (0 : Fin 1) :=
  funext fun a => Fin.ext (by match a with | ⟨0, _⟩ => rfl | ⟨1, _⟩ => rfl | ⟨2, _⟩ => rfl)
theorem idx_v44 : idx_main_v44 (ix3 b t k) = ix3 b t (0 : Fin 1) :=
  funext fun a => Fin.ext (by match a with | ⟨0, _⟩ => rfl | ⟨1, _⟩ => rfl | ⟨2, _⟩ => rfl)
theorem idx_v43 : idx_main_v43 (ix3 b t z) = ix2 b t :=
  funext fun a => Fin.ext (by match a with | ⟨0, _⟩ => rfl | ⟨1, _⟩ => rfl)
theorem idx_v35 : idx_main_v35 (ix1 t) b = ix2 b t :=
  funext fun a => Fin.ext (by match a with | ⟨0, _⟩ => rfl | ⟨1, _⟩ => rfl)
theorem idx_v40 : idx_main_v40 (ix1 t) b = ix2 b t :=
  funext fun a => Fin.ext (by match a with | ⟨0, _⟩ => rfl | ⟨1, _⟩ => rfl)
theorem idx_v42 : idx_main_v42 (ix2 t k) b = ix3 b t k :=
  funext fun a => Fin.ext (by match a with | ⟨0, _⟩ => rfl | ⟨1, _⟩ => rfl | ⟨2, _⟩ => rfl)
theorem idx_v46 : idx_main_v46 (ix2 t k) b = ix3 b t k :=
  funext fun a => Fin.ext (by match a with | ⟨0, _⟩ => rfl | ⟨1, _⟩ => rfl | ⟨2, _⟩ => rfl)
theorem idx_v48 : idx_main_v48 (ix1 t) k = ix2 t k :=
  funext fun a => Fin.ext (by match a with | ⟨0, _⟩ => rfl | ⟨1, _⟩ => rfl)

end Indices

/-- The zero word, the initial value of every sum, is the extended real zero. -/
theorem zero_word : FloatOps.ofBits (F := Ideal) .f32 0x00000000#32 = (0 : EReal) :=
  (Ideal.ofBits_def _).trans Ideal.ofBits_zero_f32

section Stages
variable (x0 : (⟨S64x512x512, .f32⟩ : BufTy).Contents (Elt Ideal)) (x1 : (⟨S64x512, .i32⟩ : BufTy).Contents (Elt Ideal))
  (x2 : (⟨S32000x512, .f32⟩ : BufTy).Contents (Elt Ideal)) (b : Fin 64) (t k : Fin 512) (z : Fin 1)

/-! ## The three norms: the square root of zero plus the sum of the squares of a row -/

/-- The norm of a row of the first array, as a [64, 512] array. -/
theorem v17_at : val_main_v17 (F := Ideal) x0 (ix2 b t) = VmfLoss.norm (VmfLoss.rowOf x0 b t) := by
  rw [val_main_v17_apply, Ideal.hostUnary_sqrt_def, val_main_call2_v1_apply, val_main_call2_cst_apply, zero_word, zero_add]
  unfold VmfLoss.norm
  refine congrArg Ideal.sqrt (Finset.sum_congr rfl fun k _ => ?_)
  rw [idx_call2_v1, val_main_call2_v0_apply, Ideal.mulf_def]
  rfl

/-- The norm of a row of the first array, as a [64, 512, 1] array. -/
theorem v12_at : val_main_v12 (F := Ideal) x0 (ix3 b t z) = VmfLoss.norm (VmfLoss.rowOf x0 b t) := by
  rw [val_main_v12_apply, Ideal.hostUnary_sqrt_def, val_main_call1_v2_apply, idx_call1_v2, val_main_call1_v1_apply,
    val_main_call1_cst_apply, zero_word, zero_add]
  unfold VmfLoss.norm
  refine congrArg Ideal.sqrt (Finset.sum_congr rfl fun k _ => ?_)
  rw [idx_call1_v1, val_main_call1_v0_apply, Ideal.mulf_def]
  rfl

/-- The norm of a row of the gathered array, as a [64, 512, 1] array. -/
theorem v7_at : val_main_v7 (F := Ideal) x1 x2 (ix3 b t z)
    = VmfLoss.norm (VmfLoss.rowOf (val_main_v6 (F := Ideal) x1 x2) b t) := by
  rw [val_main_v7_apply, Ideal.hostUnary_sqrt_def, val_main_call0_v2_apply, idx_call0_v2, val_main_call0_v1_apply,
    val_main_call0_cst_apply, zero_word, zero_add]
  unfold VmfLoss.norm
  refine congrArg Ideal.sqrt (Finset.sum_congr rfl fun k _ => ?_)
  rw [idx_call0_v1, val_main_call0_v0_apply, Ideal.mulf_def]
  generalize val_main_v6 (F := Ideal) x1 x2 = y
  rfl

/-! ## The two unit rows: an element over the larger of the norm and the guard -/

theorem v16_at : val_main_v16 (F := Ideal) x0 (ix3 b t k) = VmfLoss.unit (VmfLoss.rowOf x0 b t) k := by
  rw [val_main_v16_apply, Ideal.hostDivf_def, val_main_v15_apply, idx_v15, val_main_v14_apply, Ideal.maximumf_def, v12_at,
    val_main_v13_apply, val_main_cst_1_apply, Ideal.ofBits_def]
  rfl

theorem v11_at : val_main_v11 (F := Ideal) x1 x2 (ix3 b t k)
    = VmfLoss.unit (VmfLoss.rowOf (val_main_v6 (F := Ideal) x1 x2) b t) k := by
  rw [val_main_v11_apply, Ideal.hostDivf_def, val_main_v10_apply, idx_v10, val_main_v9_apply, Ideal.maximumf_def, v7_at,
    val_main_v8_apply, val_main_cst_apply, Ideal.ofBits_def]
  generalize val_main_v6 (F := Ideal) x1 x2 = y
  rfl

/-! ## The mask: the one-bit comparison with the padding label, read unsigned -/

theorem v34_at : val_main_v34 (F := Ideal) x1 (ix2 b t) = VmfLoss.valid (x1 (ix2 b t)) := by
  rw [val_main_v34_apply, val_main_v33_apply, val_main_v32_apply, val_main_c_6_apply]
  rfl

/-! ## The log-normaliser and the score of a row's norm -/

theorem v31_at : val_main_v31 (F := Ideal) x0 (ix2 b t) = VmfLoss.logC (VmfLoss.norm (VmfLoss.rowOf x0 b t)) := by
  simp only [val_main_v31_apply, val_main_v21_apply, val_main_v20_apply, val_main_v19_apply, val_main_cst_2_apply,
    val_main_v18_apply, val_main_v30_apply, val_main_v29_apply, val_main_cst_5_apply, val_main_v28_apply,
    val_main_v27_apply, val_main_v26_apply, val_main_cst_4_apply, val_main_v25_apply, val_main_v24_apply,
    val_main_v23_apply, val_main_cst_3_apply, val_main_v22_apply, v17_at, Ideal.subf_def, Ideal.addf_def, Ideal.mulf_def,
    Ideal.hostUnary_sqrt_def, Ideal.hostUnary_log_def, Ideal.ofBits_def]
  rfl

theorem v39_at : val_main_v39 (F := Ideal) x0 (ix2 b t) = VmfLoss.score (VmfLoss.norm (VmfLoss.rowOf x0 b t)) := by
  rw [val_main_v39_apply, Ideal.addf_def, val_main_v36_apply, Ideal.hostNegf_def, Ideal.negf_def, v31_at, val_main_v38_apply,
    Ideal.mulf_def, val_main_v37_apply, val_main_cst_8_apply, Ideal.ofBits_def, v17_at]
  rfl

/-! ## The four sums over the 64 batch rows -/

theorem v40_at : val_main_v40 (F := Ideal) x0 (ix1 t) = ∑ b : Fin 64, VmfLoss.score (VmfLoss.norm (VmfLoss.rowOf x0 b t)) := by
  rw [val_main_v40_apply, val_main_cst_9_apply, zero_word, zero_add]
  exact Finset.sum_congr rfl fun b _ => (congrArg _ (idx_v40 b t)).trans (v39_at x0 b t)

theorem v35_at : val_main_v35 (F := Ideal) x1 (ix1 t) = ∑ b : Fin 64, VmfLoss.valid (x1 (ix2 b t)) := by
  rw [val_main_v35_apply, val_main_cst_7_apply, zero_word, zero_add]
  exact Finset.sum_congr rfl fun b _ => (congrArg _ (idx_v35 b t)).trans (v34_at x1 b t)

theorem v42_at : val_main_v42 (F := Ideal) x0 (ix2 t k) = ∑ b : Fin 64, VmfLoss.unit (VmfLoss.rowOf x0 b t) k := by
  rw [val_main_v42_apply, val_main_cst_10_apply, zero_word, zero_add]
  exact Finset.sum_congr rfl fun b _ => (congrArg _ (idx_v42 b t k)).trans (v16_at x0 b t k)

/-- A unit row of the gathered array under the mask of its label. -/
theorem v45_at : val_main_v45 (F := Ideal) x1 x2 (ix3 b t k)
    = VmfLoss.unit (VmfLoss.rowOf (val_main_v6 (F := Ideal) x1 x2) b t) k * VmfLoss.valid (x1 (ix2 b t)) := by
  rw [val_main_v45_apply, Ideal.mulf_def, v11_at, val_main_v44_apply, idx_v44, val_main_v43_apply, idx_v43, v34_at]

theorem v46_at : val_main_v46 (F := Ideal) x1 x2 (ix2 t k)
    = ∑ b : Fin 64, VmfLoss.unit (VmfLoss.rowOf (val_main_v6 (F := Ideal) x1 x2) b t) k * VmfLoss.valid (x1 (ix2 b t)) := by
  rw [val_main_v46_apply, val_main_cst_11_apply, zero_word, zero_add]
  exact Finset.sum_congr rfl fun b _ => (congrArg _ (idx_v46 b t k)).trans (v45_at x1 x2 b t k)

/-! ## The inner product over the 512 features -/

theorem v48_at : val_main_v48 (F := Ideal) x0 x1 x2 (ix1 t)
    = ∑ k : Fin 512, (∑ b : Fin 64, VmfLoss.unit (VmfLoss.rowOf x0 b t) k)
        * (∑ b : Fin 64, VmfLoss.unit (VmfLoss.rowOf (val_main_v6 (F := Ideal) x1 x2) b t) k * VmfLoss.valid (x1 (ix2 b t))) := by
  rw [val_main_v48_apply, val_main_cst_12_apply, zero_word, zero_add]
  refine Finset.sum_congr rfl fun k _ => ?_
  rw [idx_v48, val_main_v47_apply, Ideal.mulf_def, v42_at, v46_at]

end Stages

/-! ## The step -/

theorem step_eq (x0 : (⟨S64x512x512, .f32⟩ : BufTy).Contents (Elt Ideal)) (x1 : (⟨S64x512, .i32⟩ : BufTy).Contents (Elt Ideal))
    (x2 : (⟨S32000x512, .f32⟩ : BufTy).Contents (Elt Ideal)) :
    val_main_v51 (F := Ideal) x0 x1 x2 = VmfLoss.perStepArr x0 (val_main_v6 (F := Ideal) x1 x2) x1 := by
  funext j
  obtain ⟨t, rfl⟩ : ∃ t : Fin 512, j = ix1 t := ⟨j 0, eq_ix1 j⟩
  rw [val_main_v51_apply, Ideal.addf_def, val_main_v41_apply, Ideal.mulf_def, v40_at, v35_at, val_main_v50_apply, Ideal.mulf_def,
    val_main_v49_apply, val_main_cst_13_apply, Ideal.ofBits_def, v48_at]
  generalize val_main_v6 (F := Ideal) x1 x2 = y
  rfl

end Cert.ReferenceIdeal.RefValue

end
-- ==== Proof.lean ====
/-
  The certificate: a von Mises-Fisher sequence loss computed by a gridded kernel equals its plain reference over the
  extended reals.

  Both programs take outputs x : f32[64,512,512] (batch, step, feature), integer labels tg : [64,512] and an embedding
  table; both gather the labels' rows y of the table by the same host operations. With kappa the Euclidean norm of a
  row, unit a row over max(norm, eps), logC(kappa) = sqrt(A + kappa^2) - V log(V + sqrt(B + kappa^2)) and valid the
  indicator that a label is not the padding label, the loss of step t is

      (sum_b (-logC kappa(b,t) + lambda1 kappa(b,t))) * (sum_b valid(b,t))
        + (-lambda2) * sum_k (sum_b unit x(b,t,.) k) * (sum_b unit y(b,t,.) k * valid(b,t))

  and the result is the sum over the 512 steps. The reference takes every batch sum over all 64 rows at once. The
  kernel walks a grid of 4 step tiles by 8 batch tiles, keeps the four batch sums of a step tile in scratch buffers
  (reset at the tile's first point, eight more rows added at each point) and at the tile's last point writes the 128
  per-step losses of the tile; the host then sums the 512 of them. The two agree because a sum over 64 rows is the sum
  of eight groups of eight rows, in any grouping: addition of extended reals is commutative and associative, so the
  precondition (finite inputs) is never opened. The float constants are the same words on both sides and are never
  evaluated, except the zero word; the kernel spells the negation as 0 - a and the mask as a widened bit read signed,
  the reference as -a and the bit read unsigned.

  The kernel's and its idealization's frames are the generated ones; the reference's frame is its generated run with
  the result dropped; the idealization rewrote nothing, so it is preserved trivially.
-/
import proofs.«119397_j22170621182543_1_alg».proof.Defs
import proofs.«119397_j22170621182543_1_alg».proof.Proof.Gen.Kernel
import proofs.«119397_j22170621182543_1_alg».proof.Proof.Gen.Kernel.Frame
import proofs.«119397_j22170621182543_1_alg».proof.Proof.Gen.KernelIdeal
import proofs.«119397_j22170621182543_1_alg».proof.Proof.Gen.KernelIdeal.Frame
import proofs.«119397_j22170621182543_1_alg».proof.Proof.Gen.ReferenceIdeal
import proofs.«119397_j22170621182543_1_alg».proof.Proof.Gen.ReferenceIdeal.Run
import proofs.«119397_j22170621182543_1_alg».proof.Proof.Gen.ReferenceIdeal.Read
import proofs.«119397_j22170621182543_1_alg».proof.Proof.Gen.Pre_finite_inputs
import proofs.«119397_j22170621182543_1_alg».proof.Proof.KFinal
import proofs.«119397_j22170621182543_1_alg».proof.Proof.RefStep
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The gathered rows are one term in both programs: the same host operations on the labels and the table. -/
theorem gathered_eq (tg : (⟨Cert.KernelIdeal.S64x512, .i32⟩ : BufTy).Contents (Elt Ideal))
    (e : (⟨Cert.KernelIdeal.S32000x512, .f32⟩ : BufTy).Contents (Elt Ideal)) :
    Cert.ReferenceIdeal.Read.val_main_v6 (F := Ideal) tg e = Cert.KernelIdeal.KValue.gathered (F := Ideal) tg e := rfl

/-- The last host operation is one function in both programs: the sum of a [512] array from zero. -/
theorem total_eq (x0 : (⟨Cert.ReferenceIdeal.S64x512x512, .f32⟩ : BufTy).Contents (Elt Ideal))
    (x1 : (⟨Cert.ReferenceIdeal.S64x512, .i32⟩ : BufTy).Contents (Elt Ideal))
    (x2 : (⟨Cert.ReferenceIdeal.S32000x512, .f32⟩ : BufTy).Contents (Elt Ideal)) :
    Cert.ReferenceIdeal.Read.val_main_v52 (F := Ideal) x0 x1 x2
      = Cert.KernelIdeal.KValue.total (F := Ideal) (Cert.ReferenceIdeal.Read.val_main_v51 (F := Ideal) x0 x1 x2) := rfl

/-- From memories that agree on the three arguments the kernel ends at the sum from zero of the per-step losses of its
    arrays, the reference at the same sum of the same losses. -/
theorem algebraic : Cert.algebraic_KernelIdeal_ReferenceIdeal := by
  intro m ρ m' ρ' _ hagree
  refine ⟨fun c => Cert.KernelIdeal.KValue.total (F := Ideal) (Cert.KernelIdeal.KValue.result m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v52 m' c
    = Cert.KernelIdeal.KValue.total (F := Ideal) (Cert.KernelIdeal.KValue.result m c)
  rw [Cert.ReferenceIdeal.Read.val_main_v52_eq, (hagree c).1, (hagree c).2.1, (hagree c).2.2,
    Cert.KernelIdeal.KValue.result_eq m c, total_eq, Cert.ReferenceIdeal.RefValue.step_eq, gathered_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
